-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16384x2048 .f32) (main_arg1 : IVec S16384x2048 1) (main_arg2 : IVec S16384x2048 1) (main_arg3 : IVec S16384x2048 32) (main_arg4 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x2048 .f32 := Host.absf main_arg4
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_c_2 : IVec S_ 32 := constantI S_ 32 0#32
  let main_v9 : IVec S16384x2048 32 := broadcastInDim S16384x2048 ![] bcast_S_S16384x2048 main_c_2
  let main_v10 : IVec S16384x2048 1 := cmpi .sge main_arg3 main_v9
  let main_c_3 : IVec S_ 1 := constantI S_ 1 1#1
  let main_v11 : IVec S_ 1 := (fun x v => Host.reduce IntOp.andi x v reducesTo_S16384x2048_S_d0_1 h_S_) main_v10 main_c_3
  let main_v12 : IVec S_ 1 := andi main_v8 main_v11
  let main_c_4 : IVec S_ 32 := constantI S_ 32 2048#32
  let main_v13 : IVec S16384x2048 32 := broadcastInDim S16384x2048 ![] bcast_S_S16384x2048 main_c_4
  let main_v14 : IVec S16384x2048 1 := cmpi .slt main_arg3 main_v13
  let main_c_5 : IVec S_ 1 := constantI S_ 1 1#1
  let main_v15 : IVec S_ 1 := (fun x v => Host.reduce IntOp.andi x v reducesTo_S16384x2048_S_d0_1 h_S_) main_v14 main_c_5
  fn_part1 (F := F) main_v12 main_v15
-- ==== Kernel.lean ====
abbrev S16384x2048 : Shape := ⟨2, ![16384, 2048]⟩
abbrev S512x2048 : Shape := ⟨2, ![512, 2048]⟩
abbrev S512x128 : Shape := ⟨2, ![512, 128]⟩
abbrev S512x128x1 : Shape := ⟨3, ![512, 128, 1]⟩

abbrev nBuf : Space → Nat
  | .hbm => 8
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S16384x2048, .i1⟩
  | .hbm, ⟨2, _⟩ => ⟨S16384x2048, .i1⟩
  | .hbm, ⟨3, _⟩ => ⟨S16384x2048, .i32⟩
  | .hbm, ⟨4, _⟩ => ⟨S16384x2048, .f32⟩
  | .hbm, ⟨5, _⟩ => ⟨S16384x2048, .i32⟩
  | .hbm, ⟨6, _⟩ => ⟨S16384x2048, .i32⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .i32⟩
  | .local _ .vmem, ⟨3, _⟩ => ⟨S512x2048, .i32⟩
  | .local _ .vmem, ⟨4, _⟩ => ⟨S512x2048, .i32⟩
  | .local _ .vmem, ⟨5, _⟩ => ⟨S512x2048, .i32⟩
  | .local _ .vmem, ⟨6, _⟩ => ⟨S512x2048, .i32⟩
  | .local _ .vmem, ⟨7, _⟩ => ⟨S512x2048, .i32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  natLt_1_32 : 1 < 32
  inb_S512x2048_S512x128_0_0 : ∀ a, (![0, 0] : Fin 2 → Nat) a + S512x128.size a ≤ S512x2048.size a
  h_S512x128 : 0 < S512x128.numel
  shapeCasts_S512x128_S512x128x1 : S512x128.ShapeCasts S512x128x1
  shapeCasts_S512x128x1_S512x128 : S512x128x1.ShapeCasts S512x128
  inb_S512x2048_S512x128_0_128 : ∀ a, (![0, 128] : Fin 2 → Nat) a + S512x128.size a ≤ S512x2048.size a
  inb_S512x2048_S512x128_0_256 : ∀ a, (![0, 256] : Fin 2 → Nat) a + S512x128.size a ≤ S512x2048.size a
  inb_S512x2048_S512x128_0_384 : ∀ a, (![0, 384] : Fin 2 → Nat) a + S512x128.size a ≤ S512x2048.size a
  inb_S512x2048_S512x128_0_512 : ∀ a, (![0, 512] : Fin 2 → Nat) a + S512x128.size a ≤ S512x2048.size a
  inb_S512x2048_S512x128_0_640 : ∀ a, (![0, 640] : Fin 2 → Nat) a + S512x128.size a ≤ S512x2048.size a
  inb_S512x2048_S512x128_0_768 : ∀ a, (![0, 768] : Fin 2 → Nat) a + S512x128.size a ≤ S512x2048.size a
  inb_S512x2048_S512x128_0_896 : ∀ a, (![0, 896] : Fin 2 → Nat) a + S512x128.size a ≤ S512x2048.size a
  inb_S512x2048_S512x128_0_1024 : ∀ a, (![0, 1024] : Fin 2 → Nat) a + S512x128.size a ≤ S512x2048.size a
  inb_S512x2048_S512x128_0_1152 : ∀ a, (![0, 1152] : Fin 2 → Nat) a + S512x128.size a ≤ S512x2048.size a
  inb_S512x2048_S512x128_0_1280 : ∀ a, (![0, 1280] : Fin 2 → Nat) a + S512x128.size a ≤ S512x2048.size a
  inb_S512x2048_S512x128_0_1408 : ∀ a, (![0, 1408] : Fin 2 → Nat) a + S512x128.size a ≤ S512x2048.size a
  inb_S512x2048_S512x128_0_1536 : ∀ a, (![0, 1536] : Fin 2 → Nat) a + S512x128.size a ≤ S512x2048.size a
  inb_S512x2048_S512x128_0_1664 : ∀ a, (![0, 1664] : Fin 2 → Nat) a + S512x128.size a ≤ S512x2048.size a
  inb_S512x2048_S512x128_0_1792 : ∀ a, (![0, 1792] : Fin 2 → Nat) a + S512x128.size a ≤ S512x2048.size a
  inb_S512x2048_S512x128_0_1920 : ∀ a, (![0, 1920] : Fin 2 → Nat) a + S512x128.size a ≤ S512x2048.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .i32 = 32 ∨ (Rect.block (s := S16384x2048) S512x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .i32 = 32 ∨ (Rect.block (s := S16384x2048) S512x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .i32 = 32 ∨ (Rect.block (s := S16384x2048) S512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S16384x2048.size a
  hwx0_4 : ∀ i : grid0.Coords, EltTy.bits .f32 = 32 ∨ (Rect.block (s := S16384x2048) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S16384x2048.size a
  hwx0_5 : ∀ i : grid0.Coords, EltTy.bits .f32 = 32 ∨ (Rect.block (s := S16384x2048) S512x2048.size (cc0_transform_5 i) (hinb0_5 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S_ : Shape := ⟨0, ![]⟩
abbrev S16384x2048x1 : Shape := ⟨3, ![16384, 2048, 1]⟩
abbrev S1 : Shape := ⟨1, ![1]⟩
abbrev S1x1x1 : Shape := ⟨3, ![1, 1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .i1⟩
  | .hbm, ⟨2, _⟩ => ⟨S16384x2048, .i1⟩
  | .hbm, ⟨3, _⟩ => ⟨S16384x2048, .i32⟩
  | .hbm, ⟨4, _⟩ => ⟨S16384x2048, .f32⟩
  | .hbm, ⟨5, _⟩ => ⟨S_, .i32⟩
  | .hbm, ⟨6, _⟩ => ⟨S16384x2048, .i32⟩
  | .hbm, ⟨7, _⟩ => ⟨S16384x2048, .i1⟩
  | .hbm, ⟨8, _⟩ => ⟨S_, .i32⟩
  | .hbm, ⟨9, _⟩ => ⟨S16384x2048, .i32⟩
  | .hbm, ⟨10, _⟩ => ⟨S16384x2048, .i32⟩
  | .hbm, ⟨11, _⟩ => ⟨S16384x2048, .i32⟩
  | .hbm, ⟨12, _⟩ => ⟨S16384x2048x1, .i32⟩
  | .hbm, ⟨13, _⟩ => ⟨S1, .i32⟩
  | .hbm, ⟨14, _⟩ => ⟨S_, .i32⟩
  | .hbm, ⟨15, _⟩ => ⟨S16384x2048x1, .i32⟩
  | .hbm, ⟨16, _⟩ => ⟨S16384x2048x1, .i1⟩
  | .hbm, ⟨17, _⟩ => ⟨S1x1x1, .i32⟩
  | .hbm, ⟨18, _⟩ => ⟨S16384x2048x1, .i32⟩
  | .hbm, ⟨19, _⟩ => ⟨S16384x2048x1, .i1⟩
  | .hbm, ⟨20, _⟩ => ⟨S16384x2048x1, .i1⟩
  | .hbm, ⟨21, _⟩ => ⟨S_, .i1⟩
  | .hbm, ⟨22, _⟩ => ⟨S16384x2048, .i1⟩
  | .hbm, ⟨23, _⟩ => ⟨S16384x2048, .f32⟩
  | .hbm, ⟨24, _⟩ => ⟨S_, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_cst : Ref sig .tc := ⟨.hbm, 28, rfl⟩
abbrev main_v2 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩

abbrev nD : Nat := 1
abbrev τ : Topo := Topo.v7x

variable {F : FTy → Type} [FloatOps F]

class Facts₀ : Prop where
  bcast_S_S16384x2048 : S_.BroadcastsInDim S16384x2048 (![] : Fin 0 → Fin S16384x2048.rank)
  shapeCasts_S16384x2048_S16384x2048x1 : S16384x2048.ShapeCasts S16384x2048x1
  bcast_S_S16384x2048x1 : S_.BroadcastsInDim S16384x2048x1 (![] : Fin 0 → Fin S16384x2048x1.rank)
  bcast_S1_S1x1x1_2 : S1.BroadcastsInDim S1x1x1 (![2] : Fin 1 → Fin S1x1x1.rank)
  bcast_S1x1x1_S16384x2048x1_0_1_2 : S1x1x1.BroadcastsInDim S16384x2048x1 (![0, 1, 2] : Fin 3 → Fin S16384x2048x1.rank)
  reducesTo_S16384x2048x1_S16384x2048_d2 : S16384x2048x1.ReducesTo [2] S16384x2048
  h_S_ : 0 < S_.numel
  gather_S16384x2048_S16384x2048x1_S16384x2048_n_1_0_0_1_2_11_wf : GatherDims.WF S16384x2048 S16384x2048x1 S16384x2048 [] [1] [0] [1] [0] 2 ![1, 1]

variable [Facts₀]

def gather_S16384x2048_S16384x2048x1_S16384x2048_n_1_0_0_1_2_11 : GatherDims S16384x2048 S16384x2048x1 S16384x2048 where
  offsetDims := []
  collapsedSliceDims := [1]
  operandBatchingDims := [0]
  startIndicesBatchingDims := [0]
  startIndexMap := [1]
  indexVectorDim := 2
  sliceSizes := ![1, 1]
  wf := gather_S16384x2048_S16384x2048x1_S16384x2048_n_1_0_0_1_2_11_wf

class Facts : Prop extends Facts₀ where

variable [Facts]
-- ==== Proof.RowPermSpec.lean ====
/-
  The mathematics shared by both programs. Every output element is a three-way choice:
    out[r, j] = if mask[r, j] then (if swap[r, j] then x[r, perms[r, j]] else x[r, j]) else 0 + noise[r, j] · c,
  with c the one float literal both programs carry. The reference reads x[r, perms[r, j]] by one gather along the row;
  the kernel cuts the row of 2048 columns into 16 chunks of 128 lanes, gathers inside every chunk at the lane
  perms mod 128 and keeps the chunk whose number is perms div 128. For 0 ≤ perms < 2048 exactly one chunk number
  matches and 128 · (perms div 128) + perms mod 128 = perms, so the two readings are the same element of x.
  This module holds the definitions only: the whole-array result, the same function over one block of 512 rows with
  the masks widened to 32-bit words, and the kernel's chunk computation as one vector function.
-/
import Idealize.ShloMosaic.PureOps.Ideal
import Idealize.ShloMosaic.Lib.ValueIdx

noncomputable section

namespace Cert.RowPerm

open Idealize.ShloMosaic Idealize.ShloMosaic.ValueIdx

/-- The arrays: 16384 rows of 2048 columns. -/
abbrev Arr : Shape := ⟨2, ![16384, 2048]⟩
/-- One block: 512 whole rows. -/
abbrev Blk : Shape := ⟨2, ![512, 2048]⟩
/-- One chunk of a block: 512 rows, 128 lanes. -/
abbrev Chk : Shape := ⟨2, ![512, 128]⟩
/-- A chunk with a trailing unit axis (the gather's index vector passes through it). -/
abbrev Chk1 : Shape := ⟨3, ![512, 128, 1]⟩

variable {F : FTy → Type} [FloatOps F]

/-- A permutation entry is a column number: as a signed word it lies in [0, 2048). -/
def InRange (p : BitVec 32) : Prop := 0 ≤ p.toInt ∧ p.toInt < 2048

/-- What a masked-out element becomes: 0 + noise · c. -/
def fill (nz : F .f32) : F .f32 :=
  FloatOps.addf (F := F) (FloatOps.ofBits (F := F) .f32 0x00000000#32) (FloatOps.mulf (F := F) nz (FloatOps.ofBits (F := F) .f32 0x3DCCCCCD#32))

/-- One output element from its mask bit, its swap bit, the permuted element, the element in place and the noise. -/
def outElt (mk sw : BitVec 1) (xp xo nz : F .f32) : F .f32 :=
  Scalar.select mk (Scalar.select sw xp xo) (fill nz)

/-- Column `p mod 2048` of the row of index `i`. -/
abbrev atCol {n : Nat} (i : (⟨2, ![n, 2048]⟩ : Shape).Idx) (p : BitVec 32) : (⟨2, ![n, 2048]⟩ : Shape).Idx :=
  ix2 ⟨(i 0).val, idx2_lt0 i⟩ ⟨p.toNat % 2048, Nat.mod_lt _ (by decide)⟩

/-- THE RESULT, over the whole arrays, with one-bit masks. -/
def result (x : FVec F Arr .f32) (mk sw : IVec Arr 1) (p : IVec Arr 32) (nz : FVec F Arr .f32) : FVec F Arr .f32 :=
  fun i => outElt (mk i) (sw i) (x (atCol i (p i))) (x i) (nz i)

/-- The same function over `n` rows, the masks as 32-bit words tested against zero (the form the kernel sees: a block
    of 512 rows, or the whole arrays). -/
def wordResult {n : Nat} (x : FVec F ⟨2, ![n, 2048]⟩ .f32) (mk sw p : IVec ⟨2, ![n, 2048]⟩ 32) (nz : FVec F ⟨2, ![n, 2048]⟩ .f32) :
    FVec F ⟨2, ![n, 2048]⟩ .f32 :=
  fun y => outElt (IntOp.cmpi .ne (mk y) 0#32) (IntOp.cmpi .ne (sw y) 0#32) (x (atCol y (p y))) (x y) (nz y)

/-- A one-bit mask widened to a word and tested against zero is the mask bit. -/
theorem cmpi_ne_setWidth (b : BitVec 1) : IntOp.cmpi .ne (b.setWidth 32) 0#32 = b := by
  by_cases h : b = 1#1
  · subst h; decide
  · have h0 := eq_zero_of_ne_one h
    subst h0; decide

/-- Over masks widened from one bit, the word form is the result. -/
theorem wordResult_widened (x : FVec F Arr .f32) (mk sw : IVec Arr 1) (p : IVec Arr 32) (nz : FVec F Arr .f32) :
    wordResult (n := 16384) x (fun i => (mk i).setWidth 32) (fun i => (sw i).setWidth 32) p nz = result x mk sw p nz := by
  funext i
  show outElt (IntOp.cmpi .ne ((mk i).setWidth 32) 0#32) (IntOp.cmpi .ne ((sw i).setWidth 32) 0#32) _ _ _ = outElt (mk i) (sw i) _ _ _
  rw [cmpi_ne_setWidth, cmpi_ne_setWidth]

/-- The lane a chunk gather reads: `lo`, moved up by 128 where it is negative, through the unit-axis round trip. -/
def lane (lo : IVec Chk 32) : IVec Chk 32 :=
  shapeCast Chk (shapeCast Chk1 (select (cmpi .slt lo (broadcast Chk (0#32 : BitVec 32))) (addi lo (broadcast Chk (128#32 : BitVec 32))) lo))

/-- One step of the chunk selection: where the chunk number `hi` is `c`, chunk `xc` gathered at the lanes; elsewhere what was there. -/
def pick (hi lo : IVec Chk 32) (c : BitVec 32) (xc prev : FVec F Chk .f32) : FVec F Chk .f32 :=
  select (cmpi .eq hi (broadcast Chk c)) (dynamicGather 1 xc (lane lo)) prev

/-- THE KERNEL'S COMPUTATION FOR ONE OUTPUT CHUNK: from the chunk of permutation entries `pc`, the sixteen chunks of x,
    the chunk of x in place, the swap and mask words and the noise. -/
def chunk (pc : IVec Chk 32) (xc0 xc1 xc2 xc3 xc4 xc5 xc6 xc7 xc8 xc9 xc10 xc11 xc12 xc13 xc14 xc15 : FVec F Chk .f32)
    (xo : FVec F Chk .f32) (sw mk : IVec Chk 32) (nz : FVec F Chk .f32) : FVec F Chk .f32 :=
  let hi : IVec Chk 32 := shrsi pc (broadcast Chk (7#32 : BitVec 32))
  let lo : IVec Chk 32 := andi pc (broadcast Chk (127#32 : BitVec 32))
  select (cmpi .ne mk (constantI Chk 32 0#32))
    (select (cmpi .ne sw (constantI Chk 32 0#32))
      (pick hi lo 15#32 xc15
      (pick hi lo 14#32 xc14
      (pick hi lo 13#32 xc13
      (pick hi lo 12#32 xc12
      (pick hi lo 11#32 xc11
      (pick hi lo 10#32 xc10
      (pick hi lo 9#32 xc9
      (pick hi lo 8#32 xc8
      (pick hi lo 7#32 xc7
      (pick hi lo 6#32 xc6
      (pick hi lo 5#32 xc5
      (pick hi lo 4#32 xc4
      (pick hi lo 3#32 xc3
      (pick hi lo 2#32 xc2
      (pick hi lo 1#32 xc1
      (pick hi lo 0#32 xc0
      (broadcast Chk (FloatOps.ofBits (F := F) .f32 0x00000000#32))))))))))))))))))
      xo)
    (addf (broadcast Chk (FloatOps.ofBits (F := F) .f32 0x00000000#32)) (mulf nz (broadcast Chk (FloatOps.ofBits (F := F) .f32 0x3DCCCCCD#32))))

end Cert.RowPerm

end
-- ==== Proof.ChunkApply.lean ====
/-
  The chunk computation read at one element. With 0 ≤ p < 2048 the arithmetic shift p >> 7 is p div 128, a number below 16,
  and p & 127 is p mod 128, which is not negative; so of the sixteen selection steps exactly the one numbered p div 128
  fires, and it reads lane p mod 128 of that chunk.
-/
import proofs.«427930_j7438883357301_3_alg».proof.Proof.RowPermSpec

noncomputable section

namespace Cert.RowPerm

open Idealize.ShloMosaic Idealize.ShloMosaic.ValueIdx

variable {F : FTy → Type} [FloatOps F]

/-! ### Words: a permutation entry in range, its shift and its mask -/

/-- A word that is not negative as a signed number has its top bit clear: twice its value is below 2 ^ 32. -/
private theorem two_mul_lt_of_inRange {p : BitVec 32} (h : InRange p) : 2 * p.toNat < 2 ^ 32 :=
  BitVec.toInt_pos_iff.mp h.1

/-- In range, the signed and the unsigned readings agree, so the unsigned one is below 2048. -/
private theorem toNat_lt_of_inRange {p : BitVec 32} (h : InRange p) : p.toNat < 2048 := by
  have h1 : p.toInt < 2048 := h.2
  rw [BitVec.toInt_eq_toNat_of_lt (two_mul_lt_of_inRange h)] at h1
  omega

/-- The arithmetic shift right by 7 of a word in range is its quotient by 128: with the top bit clear the arithmetic
    shift is the logical one, and a logical shift by 7 divides by 2 ^ 7. -/
private theorem shrsi_seven {p : BitVec 32} (h : InRange p) :
    IntOp.shrsi .vector p 7#32 = BitVec.ofNat 32 (p.toNat / 128) := by
  have hm : p.msb = false := BitVec.msb_eq_false_iff_two_mul_lt.mpr (two_mul_lt_of_inRange h)
  have hlt : p.toNat < 2048 := toNat_lt_of_inRange h
  have e7 : (7#32 : BitVec 32).toNat = 7 := by decide
  have e1 : IntOp.shrsi .vector p 7#32 = p.sshiftRight' 7#32 := if_pos (by decide)
  rw [e1, BitVec.sshiftRight_eq', e7, BitVec.sshiftRight_eq_of_msb_false hm]
  apply BitVec.eq_of_toNat_eq
  rw [BitVec.toNat_ushiftRight, Nat.shiftRight_eq_div_pow, BitVec.toNat_ofNat]
  omega

/-- The bitwise and with 127 = 2 ^ 7 - 1 of any word is its remainder by 128. -/
private theorem andi_127 (p : BitVec 32) : IntOp.andi p 127#32 = BitVec.ofNat 32 (p.toNat % 128) := by
  have e : (127#32 : BitVec 32).toNat = 2 ^ 7 - 1 := by decide
  apply BitVec.eq_of_toNat_eq
  show (p &&& 127#32).toNat = _
  rw [BitVec.toNat_and, e, Nat.and_two_pow_sub_one_eq_mod, BitVec.toNat_ofNat]
  omega

/-- A word below 128 is not negative: the signed comparison with zero answers the clear bit. -/
private theorem cmpi_slt_zero (k : Nat) (hk : k < 128) : IntOp.cmpi .slt (BitVec.ofNat 32 k) 0#32 = 0#1 := by
  have hn : (BitVec.ofNat 32 k).toNat = k := by rw [BitVec.toNat_ofNat]; omega
  have h2 : 2 * (BitVec.ofNat 32 k).toNat < 2 ^ 32 := by rw [hn]; omega
  have hi : (BitVec.ofNat 32 k).toInt = (k : Int) := by
    rw [BitVec.toInt_eq_toNat_of_lt h2, hn]
  have hs : (BitVec.ofNat 32 k).slt 0#32 = false := by
    rw [BitVec.slt_eq_decide, hi, BitVec.toInt_zero]
    exact decide_eq_false (by omega)
  show BitVec.ofBool ((BitVec.ofNat 32 k).slt 0#32) = 0#1
  rw [hs]
  rfl

/-! ### The sixteen selection steps on one word -/

/-- Sixteen nested selections on "the word is c", c from 15 down to 0, keep the branch numbered k when the word is k < 16:
    the steps numbered above k fall through, the step numbered k fires. -/
private theorem sel16 {α : Type} (hi : BitVec 32) (k : Nat) (hk : k < 16) (hhi : hi = BitVec.ofNat 32 k)
    (a : Fin 16 → α) (z : α) :
    Scalar.select (IntOp.cmpi .eq hi 15#32) (a 15)
    (Scalar.select (IntOp.cmpi .eq hi 14#32) (a 14)
    (Scalar.select (IntOp.cmpi .eq hi 13#32) (a 13)
    (Scalar.select (IntOp.cmpi .eq hi 12#32) (a 12)
    (Scalar.select (IntOp.cmpi .eq hi 11#32) (a 11)
    (Scalar.select (IntOp.cmpi .eq hi 10#32) (a 10)
    (Scalar.select (IntOp.cmpi .eq hi 9#32) (a 9)
    (Scalar.select (IntOp.cmpi .eq hi 8#32) (a 8)
    (Scalar.select (IntOp.cmpi .eq hi 7#32) (a 7)
    (Scalar.select (IntOp.cmpi .eq hi 6#32) (a 6)
    (Scalar.select (IntOp.cmpi .eq hi 5#32) (a 5)
    (Scalar.select (IntOp.cmpi .eq hi 4#32) (a 4)
    (Scalar.select (IntOp.cmpi .eq hi 3#32) (a 3)
    (Scalar.select (IntOp.cmpi .eq hi 2#32) (a 2)
    (Scalar.select (IntOp.cmpi .eq hi 1#32) (a 1)
    (Scalar.select (IntOp.cmpi .eq hi 0#32) (a 0)
    z))))))))))))))) = a ⟨k, hk⟩ := by
  subst hhi
  match k, hk with
  | 0, _ => rfl
  | 1, _ => rfl
  | 2, _ => rfl
  | 3, _ => rfl
  | 4, _ => rfl
  | 5, _ => rfl
  | 6, _ => rfl
  | 7, _ => rfl
  | 8, _ => rfl
  | 9, _ => rfl
  | 10, _ => rfl
  | 11, _ => rfl
  | 12, _ => rfl
  | 13, _ => rfl
  | 14, _ => rfl
  | 15, _ => rfl
  | k + 16, h => exact absurd h (by omega)

/-! ### The lane: a cast to the unit-axis shape and back, and a word that is not negative -/

/-- Reading a vector under another shape of as many elements, and that one back under the first, changes nothing:
    the two matchings by row-major position compose to the matching of the shape with itself. -/
private theorem cast_cast {s t : Shape} {α : Type} (v : s.Idx → α) (h : s.ShapeCasts t) (h' : t.ShapeCasts s) :
    shapeCast s (shapeCast t v h) h' = v := by
  funext i
  show v (Shape.reshapeEquiv h (Shape.reshapeEquiv h' i)) = v i
  rw [Shape.reshapeEquiv_reshapeEquiv, Shape.reshapeEquiv_self]

/-- The lane at an index: the word there, moved up by 128 where it is negative. -/
private theorem lane_apply (lo : IVec Chk 32) (i : Chk.Idx) :
    lane lo i = Scalar.select (IntOp.cmpi .slt (lo i) 0#32) (IntOp.addi (lo i) 128#32) (lo i) := by
  unfold lane
  rw [cast_cast]
  rfl

/-- The lane of the masked permutation entry is the entry's remainder by 128: the masked word is below 128, so it is
    not negative and stays. -/
private theorem lane_lo (pc : IVec Chk 32) (i : Chk.Idx) :
    lane (andi pc (broadcast Chk (127#32 : BitVec 32))) i = BitVec.ofNat 32 ((pc i).toNat % 128) := by
  rw [lane_apply]
  show Scalar.select (IntOp.cmpi .slt (IntOp.andi (pc i) 127#32) 0#32) (IntOp.addi (IntOp.andi (pc i) 127#32) 128#32)
      (IntOp.andi (pc i) 127#32) = _
  rw [andi_127, cmpi_slt_zero ((pc i).toNat % 128) (Nat.mod_lt _ (by decide)), select_zero]

/-- A gather along the lanes read at row r, lane l: the element of row r at the lane the index word names, modulo 128. -/
private theorem gather_apply {α : Type} (xc : Chk.Idx → α) (idx : IVec Chk 32) (r : Fin 512) (l : Fin 128)
    (n : Nat) (hn : n < 128) (hidx : (idx (ix2 r l)).toNat % 128 = n) :
    dynamicGather 1 xc idx (ix2 r l) = xc (ix2 r ⟨n, hn⟩) := by
  unfold dynamicGather
  refine congrArg xc ?_
  funext b
  match b with
  | ⟨0, hb⟩ =>
    have hc : ¬ (⟨0, hb⟩ : Fin (Shape.rank Chk)) = 1 := fun e => Nat.zero_ne_one (congrArg Fin.val e)
    exact if_neg hc
  | ⟨1, hb⟩ =>
    have hc : (⟨1, hb⟩ : Fin (Shape.rank Chk)) = 1 := Fin.ext rfl
    exact Eq.trans (if_pos hc) (Fin.ext hidx)

/-! ### The chunk through its sixteen steps -/

/-- The sixteen selection steps in order, chunk 15 outermost, over the zero vector. -/
private def nest (hi lo : IVec Chk 32) (xs : Fin 16 → FVec F Chk .f32) : FVec F Chk .f32 :=
  pick hi lo 15#32 (xs 15)
  (pick hi lo 14#32 (xs 14)
  (pick hi lo 13#32 (xs 13)
  (pick hi lo 12#32 (xs 12)
  (pick hi lo 11#32 (xs 11)
  (pick hi lo 10#32 (xs 10)
  (pick hi lo 9#32 (xs 9)
  (pick hi lo 8#32 (xs 8)
  (pick hi lo 7#32 (xs 7)
  (pick hi lo 6#32 (xs 6)
  (pick hi lo 5#32 (xs 5)
  (pick hi lo 4#32 (xs 4)
  (pick hi lo 3#32 (xs 3)
  (pick hi lo 2#32 (xs 2)
  (pick hi lo 1#32 (xs 1)
  (pick hi lo 0#32 (xs 0)
  (broadcast Chk (FloatOps.ofBits .f32 0x00000000#32 : F .f32)))))))))))))))))

/-- The nest at an index: sixteen nested selections on the chunk number there, each branch a gather at the lanes. -/
private theorem nest_apply (hi lo : IVec Chk 32) (xs : Fin 16 → FVec F Chk .f32) (i : Chk.Idx) :
    nest hi lo xs i =
      Scalar.select (IntOp.cmpi .eq (hi i) 15#32) (dynamicGather 1 (xs 15) (lane lo) i)
      (Scalar.select (IntOp.cmpi .eq (hi i) 14#32) (dynamicGather 1 (xs 14) (lane lo) i)
      (Scalar.select (IntOp.cmpi .eq (hi i) 13#32) (dynamicGather 1 (xs 13) (lane lo) i)
      (Scalar.select (IntOp.cmpi .eq (hi i) 12#32) (dynamicGather 1 (xs 12) (lane lo) i)
      (Scalar.select (IntOp.cmpi .eq (hi i) 11#32) (dynamicGather 1 (xs 11) (lane lo) i)
      (Scalar.select (IntOp.cmpi .eq (hi i) 10#32) (dynamicGather 1 (xs 10) (lane lo) i)
      (Scalar.select (IntOp.cmpi .eq (hi i) 9#32) (dynamicGather 1 (xs 9) (lane lo) i)
      (Scalar.select (IntOp.cmpi .eq (hi i) 8#32) (dynamicGather 1 (xs 8) (lane lo) i)
      (Scalar.select (IntOp.cmpi .eq (hi i) 7#32) (dynamicGather 1 (xs 7) (lane lo) i)
      (Scalar.select (IntOp.cmpi .eq (hi i) 6#32) (dynamicGather 1 (xs 6) (lane lo) i)
      (Scalar.select (IntOp.cmpi .eq (hi i) 5#32) (dynamicGather 1 (xs 5) (lane lo) i)
      (Scalar.select (IntOp.cmpi .eq (hi i) 4#32) (dynamicGather 1 (xs 4) (lane lo) i)
      (Scalar.select (IntOp.cmpi .eq (hi i) 3#32) (dynamicGather 1 (xs 3) (lane lo) i)
      (Scalar.select (IntOp.cmpi .eq (hi i) 2#32) (dynamicGather 1 (xs 2) (lane lo) i)
      (Scalar.select (IntOp.cmpi .eq (hi i) 1#32) (dynamicGather 1 (xs 1) (lane lo) i)
      (Scalar.select (IntOp.cmpi .eq (hi i) 0#32) (dynamicGather 1 (xs 0) (lane lo) i)
      (FloatOps.ofBits .f32 0x00000000#32 : F .f32)))))))))))))))) := rfl

/-- The chunk computation at an index is the three-way choice over the nest's element there. -/
private theorem chunk_eq (pc : IVec Chk 32) (xs : Fin 16 → FVec F Chk .f32) (xo : FVec F Chk .f32) (sw mk : IVec Chk 32)
    (nz : FVec F Chk .f32) (i : Chk.Idx) :
    chunk pc (xs 0) (xs 1) (xs 2) (xs 3) (xs 4) (xs 5) (xs 6) (xs 7) (xs 8) (xs 9) (xs 10) (xs 11) (xs 12) (xs 13) (xs 14) (xs 15) xo sw mk nz i
      = outElt (IntOp.cmpi .ne (mk i) 0#32) (IntOp.cmpi .ne (sw i) 0#32)
          (nest (shrsi pc (broadcast Chk (7#32 : BitVec 32))) (andi pc (broadcast Chk (127#32 : BitVec 32))) xs i) (xo i) (nz i) := rfl

/-- One output chunk at row `r`, lane `l`: the element of chunk number p div 128 at lane p mod 128 where the swap word
    is set, the element in place where it is not, the fill where the mask word is clear (p the permutation entry there). -/
theorem chunk_apply (pc : IVec Chk 32) (xs : Fin 16 → FVec F Chk .f32) (xo : FVec F Chk .f32) (sw mk : IVec Chk 32)
    (nz : FVec F Chk .f32) (r : Fin 512) (l : Fin 128) (h : InRange (pc (ix2 r l))) :
    chunk pc (xs 0) (xs 1) (xs 2) (xs 3) (xs 4) (xs 5) (xs 6) (xs 7) (xs 8) (xs 9) (xs 10) (xs 11) (xs 12) (xs 13) (xs 14) (xs 15) xo sw mk nz (ix2 r l)
      = outElt (IntOp.cmpi .ne (mk (ix2 r l)) 0#32) (IntOp.cmpi .ne (sw (ix2 r l)) 0#32)
          (xs ⟨(pc (ix2 r l)).toNat / 128 % 16, Nat.mod_lt _ (by decide)⟩ (ix2 r ⟨(pc (ix2 r l)).toNat % 128, Nat.mod_lt _ (by decide)⟩))
          (xo (ix2 r l)) (nz (ix2 r l)) := by
  have hlt : (pc (ix2 r l)).toNat < 2048 := toNat_lt_of_inRange h
  have hk : (pc (ix2 r l)).toNat / 128 < 16 := by omega
  have hhi : (shrsi pc (broadcast Chk (7#32 : BitVec 32))) (ix2 r l) = BitVec.ofNat 32 ((pc (ix2 r l)).toNat / 128) := shrsi_seven h
  have hidx : (lane (andi pc (broadcast Chk (127#32 : BitVec 32))) (ix2 r l)).toNat % 128 = (pc (ix2 r l)).toNat % 128 := by
    rw [lane_lo, BitVec.toNat_ofNat]
    omega
  have hfin : (⟨(pc (ix2 r l)).toNat / 128, hk⟩ : Fin 16)
      = ⟨(pc (ix2 r l)).toNat / 128 % 16, Nat.mod_lt _ (by decide)⟩ := Fin.ext (Nat.mod_eq_of_lt hk).symm
  refine (chunk_eq pc xs xo sw mk nz (ix2 r l)).trans ?_
  refine congrArg (fun v => outElt (IntOp.cmpi .ne (mk (ix2 r l)) 0#32) (IntOp.cmpi .ne (sw (ix2 r l)) 0#32) v
    (xo (ix2 r l)) (nz (ix2 r l))) ?_
  refine (nest_apply _ _ xs (ix2 r l)).trans ?_
  refine (sel16 _ _ hk hhi (fun c => dynamicGather 1 (xs c) (lane (andi pc (broadcast Chk (127#32 : BitVec 32)))) (ix2 r l)) _).trans ?_
  refine (gather_apply _ _ r l ((pc (ix2 r l)).toNat % 128) (Nat.mod_lt _ (by decide)) hidx).trans ?_
  exact congrArg (fun c => xs c (ix2 r ⟨(pc (ix2 r l)).toNat % 128, Nat.mod_lt _ (by decide)⟩)) hfin

end Cert.RowPerm

end
-- ==== Proof.PermRange.lean ====
/-
  The precondition, decoded for the permutation entries: the statement's precondition is a conjunction of four
  "all elements satisfy" tests, and its last two say 0 ≤ perms and perms < 2048 as signed 32-bit words, element by element.
-/
import proofs.«427930_j7438883357301_3_alg».proof.Pre_finite_inputs
import proofs.«427930_j7438883357301_3_alg».proof.Proof.Gen.Pre_finite_inputs
import proofs.«427930_j7438883357301_3_alg».proof.Proof.RowPermSpec
import Idealize.ShloMosaic.Lib.ReduceAll

noncomputable section

namespace Cert.RowPerm

open Idealize.ShloMosaic Idealize.ShloMosaic.ValueIdx

variable {F : FTy → Type} [FloatOps F]

/-- A conjunction of two one-bit arrays that is 1 at an index: each of the two is 1 there. -/
private theorem and_apply {s : Shape} {a b : IVec s 1} {j : s.Idx} (e : andi a b j = 1#1) : a j = 1#1 ∧ b j = 1#1 :=
  IntOp.andi_eq_one.1 e

/-- The scalar shape has one index. -/
private theorem scalar_idx_subsingleton : Subsingleton Cert.Pre_finite_inputs.S_.Idx :=
  ⟨fun a b => (eq_ix0 a).trans (eq_ix0 b).symm⟩

/-- An "all elements" test (the conjunction of a one-bit array over every axis, from 1) that came out 1: every element is 1. -/
private theorem all_apply {s : Shape} {axes : List (Fin s.rank)} {p : IVec s 1} {init : IVec Cert.Pre_finite_inputs.S_ 1}
    {hr : s.ReducesTo axes Cert.Pre_finite_inputs.S_} {hu : 0 < Cert.Pre_finite_inputs.S_.numel} {j : Cert.Pre_finite_inputs.S_.Idx}
    (e : Host.reduce IntOp.andi p init hr hu j = 1#1) (i : s.Idx) : p i = 1#1 :=
  haveI : Subsingleton Cert.Pre_finite_inputs.S_.Idx := scalar_idx_subsingleton
  Host.reduce_andi_all p init hr hu j e i

/-- The two signed comparisons read back: a word that tests ≥ 0 and < 2048 lies in [0, 2048). -/
private theorem inRange_of_cmp (p : BitVec 32) (h0 : IntOp.cmpi .sge p 0#32 = 1#1) (h1 : IntOp.cmpi .slt p 2048#32 = 1#1) :
    InRange p := by
  have a : (0#32 : BitVec 32).toInt ≤ p.toInt := IntOp.cmpi_sge.1 h0
  have b : p.toInt < (2048#32 : BitVec 32).toInt := IntOp.cmpi_slt.1 h1
  have z0 : (0#32 : BitVec 32).toInt = 0 := by decide
  have z1 : (2048#32 : BitVec 32).toInt = 2048 := by decide
  rw [z0] at a
  rw [z1] at b
  show 0 ≤ p.toInt ∧ p.toInt < 2048
  exact ⟨a, b⟩

/-- Where the precondition holds, every permutation entry is a column number. -/
theorem perm_inRange [Cert.Pre_finite_inputs.Facts] (x0 : FVec F Arr .f32) (x1 x2 : IVec Arr 1) (x3 : IVec Arr 32) (x4 : FVec F Arr .f32)
    (h : Cert.Pre_finite_inputs.fn (F := F) x0 x1 x2 x3 x4 = fun _ => 1#1) (i : Arr.Idx) : InRange (x3 i) := by
  -- the precondition at its one index: ((finite x ∧ finite noise) ∧ all (perms ≥ 0)) ∧ all (perms < 2048)
  have h0 : Cert.Pre_finite_inputs.fn (F := F) x0 x1 x2 x3 x4 ix0 = 1#1 := congrFun h ix0
  dsimp only [Cert.Pre_finite_inputs.fn, Cert.Pre_finite_inputs.fn_part1] at h0
  obtain ⟨h12, h15⟩ := and_apply h0
  obtain ⟨-, h11⟩ := and_apply h12
  -- each "all" at the element i; a broadcast scalar read at i is the scalar
  have hge := all_apply h11 i
  have hlt := all_apply h15 i
  exact inRange_of_cmp (x3 i) hge hlt

end Cert.RowPerm

end
-- ==== Proof.RefValue.lean ====
/-
  The reference's value is the shared result. Its gather along the row reads x[r, idx] with idx the permutation entry made
  non-negative (2048 added where it is negative) and clamped into the row; it keeps that element where idx is inside
  [0, 2047] and puts its out-of-range filler elsewhere. For an entry in [0, 2048) nothing is added, nothing is clamped and
  the range test passes, so the element read is x[r, perms[r, j]]; the two selects and the fill are then the shared ones.
-/
import proofs.«427930_j7438883357301_3_alg».proof.Proof.RefRead
import proofs.«427930_j7438883357301_3_alg».proof.Proof.RowPermSpec
import Idealize.ShloMosaic.PureOps.Reduce
import Idealize.ShloMosaic.Lib.Affine

noncomputable section

namespace Cert.RowPerm

open Idealize.ShloMosaic Idealize.ShloMosaic.ValueIdx
open Cert.ReferenceIdeal Cert.ReferenceIdeal.Gen Cert.ReferenceIdeal.Read

variable {F : FTy → Type} [FloatOps F]

/-! ## A column number as a word: signed and unsigned readings agree, and the range tests are decided -/

/-- A word in [0, 2048) read signed is the same natural number read unsigned, and that number is below 2048. -/
private theorem toNat_of_inRange {p : BitVec 32} (h : InRange p) : p.toInt.toNat = p.toNat ∧ p.toNat < 2048 := by
  obtain ⟨h0, h1⟩ := h
  have e : (p.toNat : Int) = p.toInt := Affine.toNat_of (Affine.word p) h0
  have e' : ((p.toInt.toNat : Nat) : Int) = p.toInt := Int.toNat_of_nonneg h0
  omega

/-- Such a word is not below zero. -/
private theorem slt_zero_of_inRange {p : BitVec 32} (h : InRange p) : IntOp.cmpi .slt p 0#32 = 0#1 := by
  refine eq_zero_of_ne_one fun e => ?_
  have hlt := IntOp.cmpi_slt.mp e
  rw [show (0#32 : BitVec 32).toInt = 0 from by decide] at hlt
  have h0 := h.1
  omega

/-- It is at least zero. -/
private theorem sge_zero_of_inRange {p : BitVec 32} (h : InRange p) : IntOp.cmpi .sge p 0#32 = 1#1 := by
  refine IntOp.cmpi_sge.mpr ?_
  rw [show (0#32 : BitVec 32).toInt = 0 from by decide]
  exact h.1

/-- It is at most 2047. -/
private theorem sle_last_of_inRange {p : BitVec 32} (h : InRange p) : IntOp.cmpi .sle p 2047#32 = 1#1 := by
  refine IntOp.cmpi_sle.mpr ?_
  rw [show (2047#32 : BitVec 32).toInt = 2047 from by decide]
  have h1 := h.2
  omega

/-! ## The index the gather is given: the entry itself -/

/-- No entry is negative, so the "add 2048 where negative" select keeps the entry. -/
private theorem v4_eq (x3 : IVec Arr 32) (hp : ∀ i : Arr.Idx, InRange (x3 i)) (m : Arr.Idx) :
    val_main_call0_v4 (F := F) x3 m = x3 m := by
  rw [val_main_call0_v4_apply, val_main_call0_v1_apply, val_main_call0_v0_apply, val_main_call0_c_apply,
    slt_zero_of_inRange (hp m), select_zero]

/-- With the trailing unit axis added, the index array at (r, j, 0) is the entry at the position the reshape reads. -/
private theorem v5_eq (x3 : IVec Arr 32) (hp : ∀ i : Arr.Idx, InRange (x3 i)) (k : S16384x2048x1.Idx) :
    val_main_call0_v5 (F := F) x3 k = x3 (idx_main_call0_v5 k) := by
  rw [val_main_call0_v5_apply, v4_eq (F := F) x3 hp]

/-- The reshape reads position (r, j) at (r, j, 0). -/
private theorem idx_takeIdx (i : Arr.Idx) : idx_main_call0_v5 (takeIdx i) = i := by
  funext a
  refine Fin.ext ?_
  have h1 : (i 1).val < 2048 := (i 1).isLt
  match a with
  | ⟨0, _⟩ =>
    show (((i 0).val * 2048 + (i 1).val) * 1 + 0) / 2048 = (i 0).val
    omega
  | ⟨1, _⟩ =>
    show (((i 0).val * 2048 + (i 1).val) * 1 + 0) % 2048 = (i 1).val
    omega

/-! ## The range test: a conjunction over the unit axis, of ones -/

/-- Every element of the range-test array is 1: the entry is at least 0 and at most 2047. -/
private theorem v11_eq_one (x3 : IVec Arr 32) (hp : ∀ i : Arr.Idx, InRange (x3 i)) (k : S16384x2048x1.Idx) :
    val_main_call0_v11 (F := F) x3 k = 1#1 := by
  rw [val_main_call0_v11_apply, val_main_call0_v7_apply, val_main_call0_v10_apply, v5_eq (F := F) x3 hp,
    val_main_call0_v6_apply, val_main_call0_c_2_apply, val_main_call0_v9_apply, val_main_call0_v8_apply,
    val_main_call0_c_1_apply]
  exact IntOp.andi_eq_one.mpr ⟨sge_zero_of_inRange (hp _), sle_last_of_inRange (hp _)⟩

/-- A left fold by `and` that starts at 1 and meets only 1s ends at 1. -/
private theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons.mpr (Or.inl rfl))
    have hl := foldl_andi_one f l fun n hn => h n (List.mem_cons.mpr (Or.inr hn))
    show l.foldl (fun r n => IntOp.andi r (f n)) (IntOp.andi 1#1 (f a)) = 1#1
    rw [ha, IntOp.andi_eq_one.mpr ⟨rfl, rfl⟩]
    exact hl

/-- The reduction by `and` over the trailing axis, started at 1, folds ones only: it is 1 everywhere. -/
private theorem v12_eq_one (x3 : IVec Arr 32) (hp : ∀ i : Arr.Idx, InRange (x3 i)) (i : Arr.Idx) :
    val_main_call0_v12 (F := F) x3 i = 1#1 := by
  unfold val_main_call0_v12
  rw [Host.reduce_eq_foldl, val_main_call0_c_3_apply]
  exact foldl_andi_one _ _ fun n _ => v11_eq_one (F := F) x3 hp n

/-! ## The gather along the row, read at an index -/

/-- The reference's gather: operand and result 16384 × 2048, start indices 16384 × 2048 × 1; axis 0 is a batching axis,
    axis 1 is collapsed and is the one axis the start index names. -/
private abbrev gD : GatherDims S16384x2048 S16384x2048x1 S16384x2048 :=
  gather_S16384x2048_S16384x2048x1_S16384x2048_n_1_0_0_1_2_11

/-- THE GATHER AT (r, j): row r of the operand (the batching axis carries the result's row, with start 0 and offset 0),
    at the column idx[r, j, 0] read signed and clamped into [0, 2047] (on the collapsed axis the batch coordinate and the
    offset are 0). -/
private theorem gather_row_apply {α : Type} {w : Nat} (x : S16384x2048.Idx → α) (idx : IVec S16384x2048x1 w)
    (y : S16384x2048.Idx) :
    Host.gather gD x idx y
      = x (ix2 ⟨(y 0).val, idx2_lt0 y⟩ (⟨min (idx (takeIdx y)).toInt.toNat 2047, by omega⟩ : Fin 2048)) := by
  unfold Host.gather
  refine congrArg x ?_
  funext a
  refine Fin.ext ?_
  match a with
  | ⟨0, _⟩ =>
    show gD.start y idx (0 : Fin 2) + gD.batchCoord y (0 : Fin 2) + gD.offCoord y (0 : Fin 2) = (y 0).val
    have hb : (0 : Fin 2) ∈ gD.operandBatchingDims := List.mem_singleton.mpr rfl
    rw [GatherDims.start_batching gD y idx (0 : Fin 2) hb,
      GatherDims.offCoord_eq_zero gD y (0 : Fin 2) (fun h => ((GatherDims.mem_sKept gD (0 : Fin 2)).mp h).2 hb)]
    simp only [Nat.zero_add, Nat.add_zero]
    unfold GatherDims.batchCoord
    rw [dif_pos hb]
    rfl
  | ⟨1, _⟩ =>
    show gD.start y idx (1 : Fin 2) + gD.batchCoord y (1 : Fin 2) + gD.offCoord y (1 : Fin 2)
      = min (idx (takeIdx y)).toInt.toNat 2047
    have hc : (1 : Fin 2) ∈ gD.collapsedSliceDims := List.mem_singleton.mpr rfl
    have hm : (1 : Fin 2) ∈ gD.startIndexMap := List.mem_singleton.mpr rfl
    have hnb : (1 : Fin 2) ∉ gD.operandBatchingDims := fun h => absurd (List.mem_singleton.mp h) (by decide)
    rw [GatherDims.batchCoord_eq_zero gD y (1 : Fin 2) hnb,
      GatherDims.offCoord_eq_zero gD y (1 : Fin 2) (fun h => ((GatherDims.mem_sKept gD (1 : Fin 2)).mp h).1 hc)]
    simp only [Nat.add_zero]
    unfold GatherDims.start
    rw [dif_pos hm]
    have hsi : gD.siIdx y ⟨List.idxOf (1 : Fin 2) gD.startIndexMap, List.idxOf_lt_length_iff.2 hm⟩ = takeIdx y := by
      funext b
      refine Fin.ext ?_
      match b with
      | ⟨0, _⟩ => rfl
      | ⟨1, _⟩ => rfl
      | ⟨2, _⟩ => rfl
    rw [hsi]
    rfl

/-- For column numbers the gather reads x[r, perms[r, j]]: the index array at (r, j, 0) is the entry, its signed reading
    is its unsigned one, the clamp into [0, 2047] and the reduction mod 2048 both leave it. -/
private theorem v13_eq (x0 : FVec F Arr .f32) (x3 : IVec Arr 32) (hp : ∀ i : Arr.Idx, InRange (x3 i)) (i : Arr.Idx) :
    val_main_call0_v13 (F := F) x0 x3 i = x0 (atCol i (x3 i)) := by
  unfold val_main_call0_v13
  refine (gather_row_apply x0 (val_main_call0_v5 (F := F) x3) i).trans ?_
  have hv : val_main_call0_v5 (F := F) x3 (takeIdx i) = x3 i := by
    rw [v5_eq (F := F) x3 hp, idx_takeIdx]
  have hn : ∀ q : BitVec 32, q = x3 i → min q.toInt.toNat 2047 = (x3 i).toNat % 2048 := by
    intro q hq
    obtain ⟨e, hlt⟩ := toNat_of_inRange (hp i)
    rw [hq]
    omega
  refine congrArg x0 ?_
  funext a
  refine Fin.ext ?_
  match a with
  | ⟨0, _⟩ => rfl
  | ⟨1, _⟩ => exact hn _ hv

/-- With every permutation entry a column number, the reference's last stage is the shared result. -/
theorem ref_eq_result (x0 : FVec F Arr .f32) (x1 x2 : IVec Arr 1) (x3 : IVec Arr 32) (x4 : FVec F Arr .f32)
    (hp : ∀ i : Arr.Idx, InRange (x3 i)) :
    Cert.ReferenceIdeal.Read.val_main_v6 (F := F) x0 x1 x2 x3 x4 = result x0 x1 x2 x3 x4 := by
  funext i
  rw [val_main_v6_apply, val_main_v1_apply, val_main_v0_apply, val_main_v5_apply, val_main_v4_apply,
    val_main_cst_0_apply, val_main_v3_apply, val_main_v2_apply, val_main_cst_apply,
    v12_eq_one (F := F) x3 hp, select_one, v13_eq (F := F) x0 x3 hp]
  rfl

end Cert.RowPerm

end
-- ==== Proof.Pieces.lean ====
/-
  One grid point of the kernel, as one function of its five input blocks. The body writes the output block of 512 rows
  by 2048 columns in sixteen stores, one per chunk of 128 columns; the value stored into chunk j is the chunk computation
  applied to chunk j of the permutation entries, all sixteen chunks of x, and chunk j of x, of the swap words, of the mask
  words and of the noise. Read at row r and lane l, with the permutation entry p there a column number, that value is the
  block-wide result at column 128·j + l: the chunk that fires is p div 128 and the lane read is p mod 128, and
  128·(p div 128) + p mod 128 = p. Sixteen tiles of one function cover the block, so the block after the body is that
  function everywhere.
-/
import proofs.«427930_j7438883357301_3_alg».proof.Proof.Gen.KernelIdeal.Frame
import proofs.«427930_j7438883357301_3_alg».proof.Proof.ChunkApply
import Idealize.ShloMosaic.Lib.Pipeline.Value

set_option maxRecDepth 16384

noncomputable section

namespace Cert.RowPerm

open Cert.KernelIdeal Cert.KernelIdeal.Gen Idealize.ShloMosaic Idealize.ShloMosaic.ValueIdx

variable {F : FTy → Type} [FloatOps F]

/-- Chunk `j` of a block: all 512 rows, the 128 columns from 128·j. -/
abbrev colRect (j : Fin 16) : Rect S512x2048 :=
  Rect.unit (s := S512x2048) ![0, 128 * j.val] S512x128.size
    (Rect.inb₂ (by show 0 + 512 ≤ 512; omega) (by have := j.isLt; show 128 * j.val + 128 ≤ 2048; omega))

variable (x0 : Vec F S512x2048 .f32) (x1 x2 x3 : Vec F S512x2048 .i32) (x4 : Vec F S512x2048 .f32)

/-- The store into chunk `j`: its rectangle and the chunk computation of the blocks' chunks. -/
abbrev chunkAt (j : Fin 16) : View.Piece (Elt F) S512x2048 .f32 :=
  ⟨colRect j, chunk (View.ld x3 (colRect j)) (View.ld x0 (colRect 0)) (View.ld x0 (colRect 1)) (View.ld x0 (colRect 2)) (View.ld x0 (colRect 3)) (View.ld x0 (colRect 4)) (View.ld x0 (colRect 5)) (View.ld x0 (colRect 6)) (View.ld x0 (colRect 7)) (View.ld x0 (colRect 8)) (View.ld x0 (colRect 9)) (View.ld x0 (colRect 10)) (View.ld x0 (colRect 11)) (View.ld x0 (colRect 12)) (View.ld x0 (colRect 13)) (View.ld x0 (colRect 14)) (View.ld x0 (colRect 15)) (View.ld x0 (colRect j)) (View.ld x2 (colRect j)) (View.ld x1 (colRect j)) (View.ld x4 (colRect j))⟩

/-- The body's sixteen stores are the sixteen chunk computations (both sides are the same operations in the same order;
    the kernel's text only cuts them into shorter definitions). -/
theorem out0_5_eq : out0_5 x0 x1 x2 x3 x4 = View.canon [chunkAt x0 x1 x2 x3 x4 15, chunkAt x0 x1 x2 x3 x4 14,
    chunkAt x0 x1 x2 x3 x4 13, chunkAt x0 x1 x2 x3 x4 12, chunkAt x0 x1 x2 x3 x4 11, chunkAt x0 x1 x2 x3 x4 10,
    chunkAt x0 x1 x2 x3 x4 9, chunkAt x0 x1 x2 x3 x4 8, chunkAt x0 x1 x2 x3 x4 7, chunkAt x0 x1 x2 x3 x4 6,
    chunkAt x0 x1 x2 x3 x4 5, chunkAt x0 x1 x2 x3 x4 4, chunkAt x0 x1 x2 x3 x4 3, chunkAt x0 x1 x2 x3 x4 2,
    chunkAt x0 x1 x2 x3 x4 1, chunkAt x0 x1 x2 x3 x4 0] := rfl

/-- Column arithmetic: chunk p div 128 at lane p mod 128 is column p (all modulo the row length 2048). -/
theorem col_arith (p : Nat) : 128 * (p / 128 % 16) + 1 * (p % 128) = p % 2048 := by omega

/-- The value stored into chunk `j`, at row `r` and lane `l`, is the block-wide result at that chunk's place in the block. -/
theorem piece_eq (hp : ∀ y : S512x2048.Idx, InRange (x3 y)) (j : Fin 16) (x : Chk.Idx) :
    chunk (View.ld x3 (colRect j)) (View.ld x0 (colRect 0)) (View.ld x0 (colRect 1)) (View.ld x0 (colRect 2)) (View.ld x0 (colRect 3)) (View.ld x0 (colRect 4)) (View.ld x0 (colRect 5)) (View.ld x0 (colRect 6)) (View.ld x0 (colRect 7)) (View.ld x0 (colRect 8)) (View.ld x0 (colRect 9)) (View.ld x0 (colRect 10)) (View.ld x0 (colRect 11)) (View.ld x0 (colRect 12)) (View.ld x0 (colRect 13)) (View.ld x0 (colRect 14)) (View.ld x0 (colRect 15)) (View.ld x0 (colRect j)) (View.ld x2 (colRect j)) (View.ld x1 (colRect j)) (View.ld x4 (colRect j)) x
      = wordResult (n := 512) x0 x1 x2 x3 x4 ((colRect j).idx x) := by
  obtain ⟨r, l, rfl⟩ : ∃ (r : Fin 512) (l : Fin 128), x = ix2 r l := ⟨x 0, x 1, eq_ix2 x⟩
  refine (chunk_apply (View.ld x3 (colRect j)) (fun c => View.ld x0 (colRect c)) (View.ld x0 (colRect j))
    (View.ld x2 (colRect j)) (View.ld x1 (colRect j)) (View.ld x4 (colRect j)) r l (hp _)).trans ?_
  have hI : (colRect ⟨(x3 ((colRect j).idx (ix2 r l))).toNat / 128 % 16, Nat.mod_lt _ (by decide)⟩).idx
        (ix2 r ⟨(x3 ((colRect j).idx (ix2 r l))).toNat % 128, Nat.mod_lt _ (by decide)⟩)
      = atCol ((colRect j).idx (ix2 r l)) (x3 ((colRect j).idx (ix2 r l))) := by
    funext a; apply Fin.ext
    match a with
    | ⟨0, _⟩ => rfl
    | ⟨1, _⟩ => exact col_arith _
  exact congrArg (fun z => outElt (IntOp.cmpi .ne (x1 ((colRect j).idx (ix2 r l))) 0#32)
    (IntOp.cmpi .ne (x2 ((colRect j).idx (ix2 r l))) 0#32) (x0 z) (x0 ((colRect j).idx (ix2 r l))) (x4 ((colRect j).idx (ix2 r l)))) hI

/-- THE BLOCK AFTER THE BODY is the block-wide result of the input blocks, wherever the permutation entries of the block
    are column numbers. -/
theorem out0_5_apply (hp : ∀ y : S512x2048.Idx, InRange (x3 y)) (y : S512x2048.Idx) :
    out0_5 x0 x1 x2 x3 x4 y = wordResult (n := 512) x0 x1 x2 x3 x4 y := by
  rw [out0_5_eq]
  refine View.canon_apply_of_pieces (Val := Elt F) (S := S512x2048) (e := .f32) (wordResult (n := 512) x0 x1 x2 x3 x4) _ ?_ y ?_
  · intro p hmem
    simp only [List.mem_cons, List.mem_nil_iff, or_false] at hmem
    rcases hmem with rfl | rfl | rfl | rfl | rfl | rfl | rfl | rfl | rfl | rfl | rfl | rfl | rfl | rfl | rfl | rfl <;>
      exact fun x => piece_eq x0 x1 x2 x3 x4 hp _ x
  · exact cover0_5 (F := F) _ _ _ _ _ _ _ _ _ _ _ _ _ _ _ _ y

end Cert.RowPerm

end
-- ==== Proof.BlockValue.lean ====
/-
  From blocks to the array. Grid point t stages rows 512·t … 512·t + 511 of every operand, whole rows, and writes back
  the same rows of the output; the thirty-two blocks tile the 16384 rows. The block-wide result of the staged blocks is
  the restriction of the array-wide result to those rows, because a row's permuted element is looked up in the same row:
  column p of row 512·t + r of the array is column p of row r of block t. So the output array after the run is the
  array-wide result of the arrays as the region finds them; the two mask arrays reach the region widened from one bit to
  32-bit words by the two host conversions before it.
-/
import proofs.«427930_j7438883357301_3_alg».proof.Proof.Gen.KernelIdeal.Value
import proofs.«427930_j7438883357301_3_alg».proof.Proof.Pieces
import Idealize.ShloMosaic.Lib.StableHlo.Run

set_option maxRecDepth 16384

noncomputable section

namespace Cert.RowPerm

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- The array-wide result of the arrays as the region finds them (the masks as words). -/
abbrev regionResult (c : Dev nD) : S16384x2048.Idx → Elt F .f32 :=
  wordResult (n := 16384) (V m c main_arg0) (V m c main_v0) (V m c main_v1) (V m c main_arg3) (V m c main_arg4)

/-- The printed index maps, decided over the 32 grid points: every operand's block moves with the output's, along the
    rows only. -/
theorem idx_facts : ∀ t : Fin cfg0.N, win0_0.index t (0 : Fin 2) = win0_5.index t (0 : Fin 2)
    ∧ win0_0.index t (1 : Fin 2) = win0_5.index t (1 : Fin 2)
    ∧ win0_1.index t (0 : Fin 2) = win0_5.index t (0 : Fin 2)
    ∧ win0_1.index t (1 : Fin 2) = win0_5.index t (1 : Fin 2)
    ∧ win0_2.index t (0 : Fin 2) = win0_5.index t (0 : Fin 2)
    ∧ win0_2.index t (1 : Fin 2) = win0_5.index t (1 : Fin 2)
    ∧ win0_3.index t (0 : Fin 2) = win0_5.index t (0 : Fin 2)
    ∧ win0_3.index t (1 : Fin 2) = win0_5.index t (1 : Fin 2)
    ∧ win0_4.index t (0 : Fin 2) = win0_5.index t (0 : Fin 2)
    ∧ win0_4.index t (1 : Fin 2) = win0_5.index t (1 : Fin 2)
    ∧ win0_5.index t (0 : Fin 2) ≤ 31 ∧ win0_5.index t (1 : Fin 2) = 0 :=
  (by decide +kernel : ∀ t : Fin grid0.N, _)

/-- Every band of 512 rows is some point's block. -/
theorem idx_onto : ∀ (q0 : Fin 32), ∃ t : Fin cfg0.N, win0_5.index t = ![q0.val, 0] :=
  (by decide +kernel : ∀ (q0 : Fin 32), ∃ t : Fin grid0.N, win0_5.index t = ![q0.val, 0])

/-- WHAT POINT `t` WRITES BACK is block `t` of the array-wide result, when the permutation entries the region finds are
    column numbers. -/
theorem flushed_eq (c : Dev nD) (hP : ∀ i : S16384x2048.Idx, InRange (V m c main_arg3 i)) (t : Fin cfg0.N) :
    (dats m 0 c).flushed 5 t = ((cfg0.win 5).blk t).view.read (Elt F) (regionResult m c) := by
  rw [Cert.KernelIdeal.Value.flushed5]
  obtain ⟨e0, e1, e2, e3, e4, e5, e6, e7, e8, e9, e10, e11⟩ := idx_facts t
  funext j
  show out0_5 (iblk m c 0 t) (iblk m c 1 t) (iblk m c 2 t) (iblk m c 3 t) (iblk m c 4 t) j
    = regionResult m c (((cfg0.win 5).blk t).view.emb j)
  refine (out0_5_apply (iblk m c 0 t) (iblk m c 1 t) (iblk m c 2 t) (iblk m c 3 t) (iblk m c 4 t)
    (fun y => hP (((cfg0.win 3).blk t).view.emb y)) j).trans ?_
  have h0 : ((cfg0.win 0).blk t).view.emb j = ((cfg0.win 5).blk t).view.emb j := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 2048 + 1 * (j 1).val = win0_5.index t (1 : Fin 2) * 2048 + 1 * (j 1).val; omega
  have h1 : ((cfg0.win 1).blk t).view.emb j = ((cfg0.win 5).blk t).view.emb j := by
    funext a; apply Fin.ext
    match a with
    | ⟨0, _⟩ => show win0_1.index t (0 : Fin 2) * 512 + 1 * (j 0).val = win0_5.index t (0 : Fin 2) * 512 + 1 * (j 0).val; omega
    | ⟨1, _⟩ => show win0_1.index t (1 : Fin 2) * 2048 + 1 * (j 1).val = win0_5.index t (1 : Fin 2) * 2048 + 1 * (j 1).val; omega
  have h2 : ((cfg0.win 2).blk t).view.emb j = ((cfg0.win 5).blk t).view.emb j := by
    funext a; apply Fin.ext
    match a with
    | ⟨0, _⟩ => show win0_2.index t (0 : Fin 2) * 512 + 1 * (j 0).val = win0_5.index t (0 : Fin 2) * 512 + 1 * (j 0).val; omega
    | ⟨1, _⟩ => show win0_2.index t (1 : Fin 2) * 2048 + 1 * (j 1).val = win0_5.index t (1 : Fin 2) * 2048 + 1 * (j 1).val; omega
  have h3 : ((cfg0.win 3).blk t).view.emb j = ((cfg0.win 5).blk t).view.emb j := by
    funext a; apply Fin.ext
    match a with
    | ⟨0, _⟩ => show win0_3.index t (0 : Fin 2) * 512 + 1 * (j 0).val = win0_5.index t (0 : Fin 2) * 512 + 1 * (j 0).val; omega
    | ⟨1, _⟩ => show win0_3.index t (1 : Fin 2) * 2048 + 1 * (j 1).val = win0_5.index t (1 : Fin 2) * 2048 + 1 * (j 1).val; omega
  have h4 : ((cfg0.win 4).blk t).view.emb j = ((cfg0.win 5).blk t).view.emb j := by
    funext a; apply Fin.ext
    match a with
    | ⟨0, _⟩ => show win0_4.index t (0 : Fin 2) * 512 + 1 * (j 0).val = win0_5.index t (0 : Fin 2) * 512 + 1 * (j 0).val; omega
    | ⟨1, _⟩ => show win0_4.index t (1 : Fin 2) * 2048 + 1 * (j 1).val = win0_5.index t (1 : Fin 2) * 2048 + 1 * (j 1).val; omega
  have hcol : ((cfg0.win 0).blk t).view.emb (atCol (n := 512) j (V m c main_arg3 (((cfg0.win 3).blk t).view.emb j)))
      = atCol (n := 16384) (((cfg0.win 5).blk t).view.emb j) (V m c main_arg3 (((cfg0.win 3).blk t).view.emb j)) := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 2048 + 1 * ((V m c main_arg3 (((cfg0.win 3).blk t).view.emb j)).toNat % 2048) = (V m c main_arg3 (((cfg0.win 3).blk t).view.emb j)).toNat % 2048; omega
  show outElt (IntOp.cmpi .ne (V m c main_v0 (((cfg0.win 1).blk t).view.emb j)) 0#32)
      (IntOp.cmpi .ne (V m c main_v1 (((cfg0.win 2).blk t).view.emb j)) 0#32)
      (V m c main_arg0 (((cfg0.win 0).blk t).view.emb (atCol (n := 512) j (V m c main_arg3 (((cfg0.win 3).blk t).view.emb j)))))
      (V m c main_arg0 (((cfg0.win 0).blk t).view.emb j)) (V m c main_arg4 (((cfg0.win 4).blk t).view.emb j))
    = outElt (IntOp.cmpi .ne (V m c main_v0 (((cfg0.win 5).blk t).view.emb j)) 0#32)
      (IntOp.cmpi .ne (V m c main_v1 (((cfg0.win 5).blk t).view.emb j)) 0#32)
      (V m c main_arg0 (atCol (n := 16384) (((cfg0.win 5).blk t).view.emb j) (V m c main_arg3 (((cfg0.win 5).blk t).view.emb j))))
      (V m c main_arg0 (((cfg0.win 5).blk t).view.emb j)) (V m c main_arg4 (((cfg0.win 5).blk t).view.emb j))
  rw [hcol, h0, h1, h2, h3, h4]

/-- An index of the array is in point `t`'s block iff each coordinate is in the block's range on its axis. -/
theorem mem_blk (t : Fin cfg0.N) (i : S16384x2048.Idx) :
    i ∈ ((cfg0.win 5).blk t).view.set ↔ ∀ a : Fin 2, win0_5.index t a * S512x2048.size a ≤ (i a).val ∧ (i a).val < win0_5.index t a * S512x2048.size a + S512x2048.size a := by
  show i ∈ ((View.whole main_v2).slice (win0_5.rect t)).set ↔ _
  rw [View.set_slice_whole, Rect.mem_set_unit]
  exact Iff.rfl

/-- The thirty-two blocks cover the array: row R lies in the block of point R div 512. -/
theorem cover (i : S16384x2048.Idx) : ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := idx_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 2048 ≤ (i 1).val ∧ (i 1).val < win0_5.index t (1 : Fin 2) * 2048 + 2048; omega

/-- THE OUTPUT ARRAY after the run is the array-wide result of the arrays as the region finds them. -/
theorem final (c : Dev nD) (hP : ∀ i : S16384x2048.Idx, InRange (V m c main_arg3 i)) :
    (dats m 0 c).arrAt 5 cfg0.N = regionResult m c :=
  (dats m 0 c).arrAt_eq_of_cover 5 (regionResult m c) (fun t _ => flushed_eq m c hP t) cover

/-- The mask array reaches the region widened to words by the first host conversion. -/
theorem V_main_v0 (c : Dev nD) : (V m c main_v0 : S16384x2048.Idx → BitVec 32)
    = fun i => (m ((c : Thread nD τ).loc main_arg1) i).setWidth 32 := by
  dsimp only [V, hostOps0]; after_results; rfl

/-- The swap array reaches the region widened to words by the second host conversion. -/
theorem V_main_v1 (c : Dev nD) : (V m c main_v1 : S16384x2048.Idx → BitVec 32)
    = fun i => (m ((c : Thread nD τ).loc main_arg2) i).setWidth 32 := by
  dsimp only [V, hostOps0]; after_results; rfl

/-- The array-wide result of what the region finds is the result of the arguments as launched. -/
theorem regionResult_eq (c : Dev nD) : regionResult m c
    = result (m ((c : Thread nD τ).loc main_arg0)) (m ((c : Thread nD τ).loc main_arg1)) (m ((c : Thread nD τ).loc main_arg2))
        (m ((c : Thread nD τ).loc main_arg3)) (m ((c : Thread nD τ).loc main_arg4)) := by
  show wordResult (n := 16384) (V m c main_arg0) (V m c main_v0) (V m c main_v1) (V m c main_arg3) (V m c main_arg4) = _
  rw [V_main_arg0, V_main_v0, V_main_v1, V_main_arg3, V_main_arg4]
  exact wordResult_widened _ _ _ _ _

/-- THE KERNEL'S RUN, READ: where the launched permutation entries are column numbers, every weakly fair execution
    terminates with the output array at the result of the launched arguments, and the arguments unchanged. -/
theorem run (hP : ∀ (c : Dev nD) (i : S16384x2048.Idx), InRange (m ((c : Thread nD τ).loc main_arg3) i)) :
    θ_run defs (onTc (τ := τ) (main (F := F))) ⟨m, fun _ => 0, ρ⟩ fun r => ∀ c : Dev nD,
      r.2.mem ((c : Thread nD τ).loc main_v2) = result (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c (fun i => by rw [V_main_arg3]; exact hP c i)).trans (regionResult_eq m c)), (h c).2⟩)
    (Cert.KernelIdeal.Value.run_blocks m ρ)

end Cert.RowPerm

end
-- ==== Proof.lean ====
/-
  The certificate: a per-row feature swap with masking noise, kernel against reference, over the extended reals.
  Both programs compute, element by element,
    out[r, j] = if mask[r, j] then (if swap[r, j] then x[r, perms[r, j]] else x[r, j]) else 0 + noise[r, j] · c.
  The reference gathers x[r, perms[r, j]] along the row in one operation; the kernel splits the row into sixteen chunks of
  128 lanes, gathers at lane perms mod 128 inside every chunk and keeps chunk perms div 128. The two agree where the
  permutation entries are column numbers, 0 ≤ perms < 2048, which the precondition states (outside that range the
  reference wraps a negative entry or returns its out-of-range filler, the kernel returns 0). No law of the extended reals
  is used: the two sides are the same selects of the same elements, and the same sum 0 + noise · c.
  The frames of the two kernel programs are the generated ones; the reference's frame is its generated run with the
  result dropped; the idealization rewrote nothing, so `preserves` is trivial.
-/
import proofs.«427930_j7438883357301_3_alg».proof.Defs
import proofs.«427930_j7438883357301_3_alg».proof.Proof.Gen.Kernel
import proofs.«427930_j7438883357301_3_alg».proof.Proof.Gen.Kernel.Skeleton
import proofs.«427930_j7438883357301_3_alg».proof.Proof.Gen.Kernel.Launch
import proofs.«427930_j7438883357301_3_alg».proof.Proof.Gen.Kernel.Points
import proofs.«427930_j7438883357301_3_alg».proof.Proof.Gen.Kernel.Frame
import proofs.«427930_j7438883357301_3_alg».proof.Proof.Gen.KernelIdeal
import proofs.«427930_j7438883357301_3_alg».proof.Proof.Gen.KernelIdeal.Skeleton
import proofs.«427930_j7438883357301_3_alg».proof.Proof.Gen.KernelIdeal.Launch
import proofs.«427930_j7438883357301_3_alg».proof.Proof.Gen.KernelIdeal.Points
import proofs.«427930_j7438883357301_3_alg».proof.Proof.Gen.KernelIdeal.Frame
import proofs.«427930_j7438883357301_3_alg».proof.Proof.Gen.ReferenceIdeal
import proofs.«427930_j7438883357301_3_alg».proof.Proof.Gen.Pre_finite_inputs
import proofs.«427930_j7438883357301_3_alg».proof.Proof.Gen.KernelIdeal.Value
import proofs.«427930_j7438883357301_3_alg».proof.Proof.RefRun
import proofs.«427930_j7438883357301_3_alg».proof.Proof.RefRead
import proofs.«427930_j7438883357301_3_alg».proof.Proof.RowPermSpec
import proofs.«427930_j7438883357301_3_alg».proof.Proof.ChunkApply
import proofs.«427930_j7438883357301_3_alg».proof.Proof.PermRange
import proofs.«427930_j7438883357301_3_alg».proof.Proof.RefValue
import proofs.«427930_j7438883357301_3_alg».proof.Proof.Pieces
import proofs.«427930_j7438883357301_3_alg».proof.Proof.BlockValue
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with the permutation entries column numbers, the kernel's output array and
    the reference's result are one array: the shared result of the arguments. -/
theorem algebraic : Cert.algebraic_KernelIdeal_ReferenceIdeal := by
  intro m ρ m' ρ' hpre hagree
  have hP : ∀ (c : Dev Cert.KernelIdeal.nD) (i : Cert.KernelIdeal.S16384x2048.Idx),
      Cert.RowPerm.InRange (m ((c : Thread Cert.KernelIdeal.nD Cert.KernelIdeal.τ).loc Cert.KernelIdeal.main_arg3) i) :=
    fun c i => Cert.RowPerm.perm_inRange _ _ _ _ _ (hpre c) i
  refine ⟨_, Cert.RowPerm.run (F := Ideal) m ρ hP, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, (hagree c).1, (hagree c).2.1, (hagree c).2.2.1, (hagree c).2.2.2.1, (hagree c).2.2.2.2]
  exact Cert.RowPerm.ref_eq_result _ _ _ _ _ (hP c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
